-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x16 : Shape := ⟨2, ![1000000, 16]⟩
abbrev S1000000x32 : Shape := ⟨2, ![1000000, 32]⟩
abbrev S1000000 : Shape := ⟨1, ![1000000]⟩
abbrev S80x97 : Shape := ⟨2, ![80, 97]⟩
abbrev S80 : Shape := ⟨1, ![80]⟩
abbrev S64x80 : Shape := ⟨2, ![64, 80]⟩
abbrev S64 : Shape := ⟨1, ![64]⟩
abbrev S_ : Shape := ⟨0, ![]⟩

class Facts : Prop where
  bcast_S_S1000000x16 : S_.BroadcastsInDim S1000000x16 (![] : Fin 0 → Fin S1000000x16.rank)
  reducesTo_S1000000x16_S_d0_1 : S1000000x16.ReducesTo [0, 1] S_
  h_S_ : 0 < S_.numel
  bcast_S_S1000000x32 : S_.BroadcastsInDim S1000000x32 (![] : Fin 0 → Fin S1000000x32.rank)
  reducesTo_S1000000x32_S_d0_1 : S1000000x32.ReducesTo [0, 1] S_
  bcast_S_S1000000 : S_.BroadcastsInDim S1000000 (![] : Fin 0 → Fin S1000000.rank)
  reducesTo_S1000000_S_d0 : S1000000.ReducesTo [0] S_
  bcast_S_S80x97 : S_.BroadcastsInDim S80x97 (![] : Fin 0 → Fin S80x97.rank)
  reducesTo_S80x97_S_d0_1 : S80x97.ReducesTo [0, 1] S_
  bcast_S_S80 : S_.BroadcastsInDim S80 (![] : Fin 0 → Fin S80.rank)
  reducesTo_S80_S_d0 : S80.ReducesTo [0] S_
  bcast_S_S64x80 : S_.BroadcastsInDim S64x80 (![] : Fin 0 → Fin S64x80.rank)
  reducesTo_S64x80_S_d0_1 : S64x80.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x80 .f32) (main_arg8 : FVec F S64 .f32) (main_v33 : IVec S_ 1) : IVec S_ 1 :=
  let main_v34 : FVec F S64x80 .f32 := Host.absf main_arg7
  let main_cst_12 : FVec F S_ .f32 := constant S_ .f32 0x7F800000#32
  let main_v35 : FVec F S64x80 .f32 := broadcastInDim S64x80 ![] bcast_S_S64x80 main_cst_12
  let main_v36 : IVec S64x80 1 := cmpf .olt main_v34 main_v35
  let main_c_13 : IVec S_ 1 := constantI S_ 1 1#1
  let main_v37 : IVec S_ 1 := (fun x v => Host.reduce IntOp.andi x v reducesTo_S64x80_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S1000000 .f32) (main_arg5 : FVec F S80x97 .f32) (main_arg6 : FVec F S80 .f32) (main_arg7 : FVec F S64x80 .f32) (main_arg8 : FVec F S64 .f32) (main_v13 : IVec S_ 1) (main_v16 : IVec S1000000x32 1) : IVec S_ 1 :=
  let main_c_5 : IVec S_ 1 := constantI S_ 1 1#1
  let main_v17 : IVec S_ 1 := (fun x v => Host.reduce IntOp.andi x v reducesTo_S1000000x32_S_d0_1 h_S_) main_v16 main_c_5
  let main_v18 : IVec S_ 1 := andi main_v13 main_v17
  let main_v19 : FVec F S1000000 .f32 := Host.absf main_arg4
  let main_cst_6 : FVec F S_ .f32 := constant S_ .f32 0x7F800000#32
  let main_v20 : FVec F S1000000 .f32 := broadcastInDim S1000000 ![] bcast_S_S1000000 main_cst_6
  let main_v21 : IVec S1000000 1 := cmpf .olt main_v19 main_v20
  let main_c_7 : IVec S_ 1 := constantI S_ 1 1#1
  let main_v22 : IVec S_ 1 := (fun x v => Host.reduce IntOp.andi x v reducesTo_S1000000_S_d0 h_S_) main_v21 main_c_7
  let main_v23 : IVec S_ 1 := andi main_v18 main_v22
  let main_v24 : FVec F S80x97 .f32 := Host.absf main_arg5
  let main_cst_8 : FVec F S_ .f32 := constant S_ .f32 0x7F800000#32
  let main_v25 : FVec F S80x97 .f32 := broadcastInDim S80x97 ![] bcast_S_S80x97 main_cst_8
  let main_v26 : IVec S80x97 1 := cmpf .olt main_v24 main_v25
  let main_c_9 : IVec S_ 1 := constantI S_ 1 1#1
  let main_v27 : IVec S_ 1 := (fun x v => Host.reduce IntOp.andi x v reducesTo_S80x97_S_d0_1 h_S_) main_v26 main_c_9
  let main_v28 : IVec S_ 1 := andi main_v23 main_v27
  let main_v29 : FVec F S80 .f32 := Host.absf main_arg6
  let main_cst_10 : FVec F S_ .f32 := constant S_ .f32 0x7F800000#32
  let main_v30 : FVec F S80 .f32 := broadcastInDim S80 ![] bcast_S_S80 main_cst_10
  let main_v31 : IVec S80 1 := cmpf .olt main_v29 main_v30
  let main_c_11 : IVec S_ 1 := constantI S_ 1 1#1
  let main_v32 : IVec S_ 1 := (fun x v => Host.reduce IntOp.andi x v reducesTo_S80_S_d0 h_S_) main_v31 main_c_11
  let main_v33 : IVec S_ 1 := andi main_v28 main_v32
  fn_part2 (F := F) main_arg7 main_arg8 main_v33

def fn {F : FTy → Type} [FloatOps F] (main_arg0 : FVec F S1000000x16 .f32) (main_arg1 : FVec F S1000000x32 .f32) (main_arg2 : FVec F S1000000x16 .f32) (main_arg3 : FVec F S1000000x32 .f32) (main_arg4 : FVec F S1000000 .f32) (main_arg5 : FVec F S80x97 .f32) (main_arg6 : FVec F S80 .f32) (main_arg7 : FVec F S64x80 .f32) (main_arg8 : FVec F S64 .f32) : IVec S_ 1 :=
  let main_v0 : FVec F S1000000x16 .f32 := Host.absf main_arg0
  let main_cst : FVec F S_ .f32 := constant S_ .f32 0x7F800000#32
  let main_v1 : FVec F S1000000x16 .f32 := broadcastInDim S1000000x16 ![] bcast_S_S1000000x16 main_cst
  let main_v2 : IVec S1000000x16 1 := cmpf .olt main_v0 main_v1
  let main_c : IVec S_ 1 := constantI S_ 1 1#1
  let main_v3 : IVec S_ 1 := (fun x v => Host.reduce IntOp.andi x v reducesTo_S1000000x16_S_d0_1 h_S_) main_v2 main_c
  let main_v4 : FVec F S1000000x32 .f32 := Host.absf main_arg1
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_v9 : FVec F S1000000x16 .f32 := Host.absf main_arg2
  let main_cst_2 : FVec F S_ .f32 := constant S_ .f32 0x7F800000#32
  let main_v10 : FVec F S1000000x16 .f32 := broadcastInDim S1000000x16 ![] bcast_S_S1000000x16 main_cst_2
  let main_v11 : IVec S1000000x16 1 := cmpf .olt main_v9 main_v10
  let main_c_3 : IVec S_ 1 := constantI S_ 1 1#1
  let main_v12 : IVec S_ 1 := (fun x v => Host.reduce IntOp.andi x v reducesTo_S1000000x16_S_d0_1 h_S_) main_v11 main_c_3
  let main_v13 : IVec S_ 1 := andi main_v8 main_v12
  let main_v14 : FVec F S1000000x32 .f32 := Host.absf main_arg3
  let main_cst_4 : FVec F S_ .f32 := constant S_ .f32 0x7F800000#32
  let main_v15 : FVec F S1000000x32 .f32 := broadcastInDim S1000000x32 ![] bcast_S_S1000000x32 main_cst_4
  let main_v16 : IVec S1000000x32 1 := cmpf .olt main_v14 main_v15
  fn_part1 (F := F) main_arg4 main_arg5 main_arg6 main_arg7 main_arg8 main_v13 main_v16
-- ==== Kernel.lean ====
abbrev S1000000x16 : Shape := ⟨2, ![1000000, 16]⟩
abbrev S1000000x32 : Shape := ⟨2, ![1000000, 32]⟩
abbrev S1000000 : Shape := ⟨1, ![1000000]⟩
abbrev S80x97 : Shape := ⟨2, ![80, 97]⟩
abbrev S80 : Shape := ⟨1, ![80]⟩
abbrev S64x80 : Shape := ⟨2, ![64, 80]⟩
abbrev S64 : Shape := ⟨1, ![64]⟩
abbrev S1000000x1 : Shape := ⟨2, ![1000000, 1]⟩
abbrev S97x80 : Shape := ⟨2, ![97, 80]⟩
abbrev S80x64 : Shape := ⟨2, ![80, 64]⟩
abbrev S1000000x64 : Shape := ⟨2, ![1000000, 64]⟩
abbrev S4000x16 : Shape := ⟨2, ![4000, 16]⟩
abbrev S4000x32 : Shape := ⟨2, ![4000, 32]⟩
abbrev S4000x1 : Shape := ⟨2, ![4000, 1]⟩
abbrev S4000x64 : Shape := ⟨2, ![4000, 64]⟩
abbrev S4000x97 : Shape := ⟨2, ![4000, 97]⟩
abbrev S4000x80 : Shape := ⟨2, ![4000, 80]⟩
abbrev S1x80 : Shape := ⟨2, ![1, 80]⟩
abbrev S1x64 : Shape := ⟨2, ![1, 64]⟩

abbrev nBuf : Space → Nat
  | .hbm => 15
  | .vmem => 16
  | .smem => 0
  | _ => 0

abbrev bufTy : (tb : Table) → Fin (tcTables nBuf tb) → BufTy
  | .hbm, ⟨0, _⟩ => ⟨S1000000x16, .f32⟩
  | .hbm, ⟨1, _⟩ => ⟨S1000000x32, .f32⟩
  | .hbm, ⟨2, _⟩ => ⟨S1000000x16, .f32⟩
  | .hbm, ⟨3, _⟩ => ⟨S1000000x32, .f32⟩
  | .hbm, ⟨4, _⟩ => ⟨S1000000, .f32⟩
  | .hbm, ⟨5, _⟩ => ⟨S80x97, .f32⟩
  | .hbm, ⟨6, _⟩ => ⟨S80, .f32⟩
  | .hbm, ⟨7, _⟩ => ⟨S64x80, .f32⟩
  | .hbm, ⟨8, _⟩ => ⟨S64, .f32⟩
  | .hbm, ⟨9, _⟩ => ⟨S1000000x1, .f32⟩
  | .hbm, ⟨10, _⟩ => ⟨S97x80, .f32⟩
  | .hbm, ⟨11, _⟩ => ⟨S97x80, .bf16⟩
  | .hbm, ⟨12, _⟩ => ⟨S80x64, .f32⟩
  | .hbm, ⟨13, _⟩ => ⟨S80x64, .bf16⟩
  | .hbm, ⟨14, _⟩ => ⟨S1000000x64, .f32⟩
  | .local _ .vmem, ⟨0, _⟩ => ⟨S4000x16, .f32⟩
  | .local _ .vmem, ⟨1, _⟩ => ⟨S4000x16, .f32⟩
  | .local _ .vmem, ⟨2, _⟩ => ⟨S4000x32, .f32⟩
  | .local _ .vmem, ⟨3, _⟩ => ⟨S4000x32, .f32⟩
  | .local _ .vmem, ⟨4, _⟩ => ⟨S4000x16, .f32⟩
  | .local _ .vmem, ⟨5, _⟩ => ⟨S4000x16, .f32⟩
  | .local _ .vmem, ⟨6, _⟩ => ⟨S4000x32, .f32⟩
  | .local _ .vmem, ⟨7, _⟩ => ⟨S4000x32, .f32⟩
  | .local _ .vmem, ⟨8, _⟩ => ⟨S4000x1, .f32⟩
  | .local _ .vmem, ⟨9, _⟩ => ⟨S4000x1, .f32⟩
  | .local _ .vmem, ⟨10, _⟩ => ⟨S97x80, .bf16⟩
  | .local _ .vmem, ⟨11, _⟩ => ⟨S80, .f32⟩
  | .local _ .vmem, ⟨12, _⟩ => ⟨S80x64, .bf16⟩
  | .local _ .vmem, ⟨13, _⟩ => ⟨S64, .f32⟩
  | .local _ .vmem, ⟨14, _⟩ => ⟨S4000x64, .f32⟩
  | .local _ .vmem, ⟨15, _⟩ => ⟨S4000x64, .f32⟩
  | _, _ => ⟨S1000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S97x80 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S80 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S80x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S1000000_S1000000x1 : S1000000.ShapeCasts S1000000x1
  transposes_S80x97_S97x80_1_0 : S80x97.Transposes [1, 0] S97x80
  bitsLt_bf16_f32 : FTy.bits .bf16 < FTy.bits .f32
  transposes_S64x80_S80x64_1_0 : S64x80.Transposes [1, 0] S80x64
  inb_S4000x16_S4000x16_0_0 : ∀ a, (![0, 0] : Fin 2 → Nat) a + S4000x16.size a ≤ S4000x16.size a
  h_S4000x16 : 0 < S4000x16.numel
  inb_S4000x32_S4000x32_0_0 : ∀ a, (![0, 0] : Fin 2 → Nat) a + S4000x32.size a ≤ S4000x32.size a
  h_S4000x32 : 0 < S4000x32.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  concatenates_S4000x16_S4000x32_S4000x16_S4000x32_S4000x1_S4000x97_d1 : Shape.Concatenates [S4000x16, S4000x32, S4000x16, S4000x32, S4000x1] S4000x97 1
  inb_S97x80_S97x80_0_0 : ∀ a, (![0, 0] : Fin 2 → Nat) a + S97x80.size a ≤ S97x80.size a
  h_S97x80 : 0 < S97x80.numel
  shapeCasts_S97x80_S97x80 : S97x80.ShapeCasts S97x80
  inb_S80_S80_0 : ∀ a, (![0] : Fin 1 → Nat) a + S80.size a ≤ S80.size a
  h_S80 : 0 < S80.numel
  shapeCasts_S80_S1x80 : S80.ShapeCasts S1x80
  broadcasts_S1x80_S4000x80 : S1x80.Broadcasts S4000x80
  inb_S80x64_S80x64_0_0 : ∀ a, (![0, 0] : Fin 2 → Nat) a + S80x64.size a ≤ S80x64.size a
  h_S80x64 : 0 < S80x64.numel
  shapeCasts_S80x64_S80x64 : S80x64.ShapeCasts S80x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  dot_S4000x97_S97x80_S4000x80_1_0_0_1_n_n_wf : DotDims.WF S4000x97 S97x80 S4000x80 [1] [0] [0] [1] [] []
  dot_S4000x80_S80x64_S4000x64_1_0_0_1_n_n_wf : DotDims.WF S4000x80 S80x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x16.size a ≤ S1000000x16.size a
  hwx0_0 : ∀ i : grid0.Coords, EltTy.bits .f32 = 32 ∨ (Rect.block (s := S1000000x16) S4000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S1000000x32.size a
  hwx0_1 : ∀ i : grid0.Coords, EltTy.bits .f32 = 32 ∨ (Rect.block (s := S1000000x32) S4000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S1000000x16.size a
  hwx0_2 : ∀ i : grid0.Coords, EltTy.bits .f32 = 32 ∨ (Rect.block (s := S1000000x16) S4000x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x32.size a ≤ S1000000x32.size a
  hwx0_3 : ∀ i : grid0.Coords, EltTy.bits .f32 = 32 ∨ (Rect.block (s := S1000000x32) S4000x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S1000000x1.size a
  hwx0_4 : ∀ i : grid0.Coords, EltTy.bits .f32 = 32 ∨ (Rect.block (s := S1000000x1) S4000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S97x80.size a ≤ S97x80.size a
  hwx0_5 : ∀ i : grid0.Coords, EltTy.bits .bf16 = 32 ∨ (Rect.block (s := S97x80) S97x80.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S80.size a ≤ S80.size a
  hwx0_6 : ∀ i : grid0.Coords, EltTy.bits .f32 = 32 ∨ (Rect.block (s := S80) S80.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S80x64.size a ≤ S80x64.size a
  hwx0_7 : ∀ i : grid0.Coords, EltTy.bits .bf16 = 32 ∨ (Rect.block (s := S80x64) S80x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x64.size a ≤ S1000000x64.size a
  hwx0_9 : ∀ i : grid0.Coords, EltTy.bits .f32 = 32 ∨ (Rect.block (s := S1000000x64) S4000x64.size (cc0_transform_9 i) (hinb0_9 i)).WholeWords (EltTy.packing .f32)

variable [Facts₀]

def dot_S4000x97_S97x80_S4000x80_1_0_0_1_n_n : DotDims S4000x97 S97x80 S4000x80 where
  lhsContracting := [1]
  rhsContracting := [0]
  lhsNonContracting := [0]
  rhsNonContracting := [1]
  lhsBatch := []
  rhsBatch := []
  wf := dot_S4000x97_S97x80_S4000x80_1_0_0_1_n_n_wf
def dot_S4000x80_S80x64_S4000x64_1_0_0_1_n_n : DotDims S4000x80 S80x64 S4000x64 where
  lhsContracting := [1]
  rhsContracting := [0]
  lhsNonContracting := [0]
  rhsNonContracting := [1]
  lhsBatch := []
  rhsBatch := []
  wf := dot_S4000x80_S80x64_S4000x64_1_0_0_1_n_n_wf

abbrev win0_0 : Pipeline.Window sig grid0 :=
  Pipeline.Window.ofSpec (Memref.whole main_arg0) S4000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4000x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S97x80.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S80.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S80x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S4000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1000000x16 : Shape := ⟨2, ![1000000, 16]⟩
abbrev S1000000x32 : Shape := ⟨2, ![1000000, 32]⟩
abbrev S1000000 : Shape := ⟨1, ![1000000]⟩
abbrev S80x97 : Shape := ⟨2, ![80, 97]⟩
abbrev S80 : Shape := ⟨1, ![80]⟩
abbrev S64x80 : Shape := ⟨2, ![64, 80]⟩
abbrev S64 : Shape := ⟨1, ![64]⟩
abbrev S1000000x1 : Shape := ⟨2, ![1000000, 1]⟩
abbrev S1000000x97 : Shape := ⟨2, ![1000000, 97]⟩
abbrev S97x80 : Shape := ⟨2, ![97, 80]⟩
abbrev S1000000x80 : Shape := ⟨2, ![1000000, 80]⟩
abbrev S1x80 : Shape := ⟨2, ![1, 80]⟩
abbrev S_ : Shape := ⟨0, ![]⟩
abbrev S80x64 : Shape := ⟨2, ![80, 64]⟩
abbrev S1000000x64 : Shape := ⟨2, ![1000000, 64]⟩
abbrev S1x64 : Shape := ⟨2, ![1, 64]⟩

abbrev nBuf : Space → Nat
  | .hbm => 25
  | .vmem => 0
  | .smem => 0
  | _ => 0

abbrev bufTy : (tb : Table) → Fin (tcTables nBuf tb) → BufTy
  | .hbm, ⟨0, _⟩ => ⟨S1000000x16, .f32⟩
  | .hbm, ⟨1, _⟩ => ⟨S1000000x32, .f32⟩
  | .hbm, ⟨2, _⟩ => ⟨S1000000x16, .f32⟩
  | .hbm, ⟨3, _⟩ => ⟨S1000000x32, .f32⟩
  | .hbm, ⟨4, _⟩ => ⟨S1000000, .f32⟩
  | .hbm, ⟨5, _⟩ => ⟨S80x97, .f32⟩
  | .hbm, ⟨6, _⟩ => ⟨S80, .f32⟩
  | .hbm, ⟨7, _⟩ => ⟨S64x80, .f32⟩
  | .hbm, ⟨8, _⟩ => ⟨S64, .f32⟩
  | .hbm, ⟨9, _⟩ => ⟨S1000000x1, .f32⟩
  | .hbm, ⟨10, _⟩ => ⟨S1000000x97, .f32⟩
  | .hbm, ⟨11, _⟩ => ⟨S97x80, .f32⟩
  | .hbm, ⟨12, _⟩ => ⟨S1000000x80, .f32⟩
  | .hbm, ⟨13, _⟩ => ⟨S1x80, .f32⟩
  | .hbm, ⟨14, _⟩ => ⟨S1000000x80, .f32⟩
  | .hbm, ⟨15, _⟩ => ⟨S1000000x80, .f32⟩
  | .hbm, ⟨16, _⟩ => ⟨S_, .f32⟩
  | .hbm, ⟨17, _⟩ => ⟨S1000000x80, .f32⟩
  | .hbm, ⟨18, _⟩ => ⟨S1000000x80, .f32⟩
  | .hbm, ⟨19, _⟩ => ⟨S80x64, .f32⟩
  | .hbm, ⟨20, _⟩ => ⟨S1000000x64, .f32⟩
  | .hbm, ⟨21, _⟩ => ⟨S1x64, .f32⟩
  | .hbm, ⟨22, _⟩ => ⟨S1000000x64, .f32⟩
  | .hbm, ⟨23, _⟩ => ⟨S1000000x64, .f32⟩
  | .hbm, ⟨24, _⟩ => ⟨S1000000x64, .f32⟩
  | _, _ => ⟨S1000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  concatenates_S1000000x16_S1000000x32_S1000000x16_S1000000x32_S1000000x1_S1000000x97_d1 : Shape.Concatenates [S1000000x16, S1000000x32, S1000000x16, S1000000x32, S1000000x1] S1000000x97 1
  transposes_S80x97_S97x80_1_0 : S80x97.Transposes [1, 0] S97x80
  bcast_S80_S1x80_1 : S80.BroadcastsInDim S1x80 (![1] : Fin 1 → Fin S1x80.rank)
  bcast_S1x80_S1000000x80_0_1 : S1x80.BroadcastsInDim S1000000x80 (![0, 1] : Fin 2 → Fin S1000000x80.rank)
  bcast_S_S1000000x80 : S_.BroadcastsInDim S1000000x80 (![] : Fin 0 → Fin S1000000x80.rank)
  transposes_S64x80_S80x64_1_0 : S64x80.Transposes [1, 0] S80x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  dot_S1000000x97_S97x80_S1000000x80_1_0_0_1_n_n_wf : DotDims.WF S1000000x97 S97x80 S1000000x80 [1] [0] [0] [1] [] []
  dot_S1000000x80_S80x64_S1000000x64_1_0_0_1_n_n_wf : DotDims.WF S1000000x80 S80x64 S1000000x64 [1] [0] [0] [1] [] []

variable [Facts₀]

def dot_S1000000x97_S97x80_S1000000x80_1_0_0_1_n_n : DotDims S1000000x97 S97x80 S1000000x80 where
  lhsContracting := [1]
  rhsContracting := [0]
  lhsNonContracting := [0]
  rhsNonContracting := [1]
  lhsBatch := []
  rhsBatch := []
  wf := dot_S1000000x97_S97x80_S1000000x80_1_0_0_1_n_n_wf
def dot_S1000000x80_S80x64_S1000000x64_1_0_0_1_n_n : DotDims S1000000x80 S80x64 S1000000x64 where
  lhsContracting := [1]
  rhsContracting := [0]
  lhsNonContracting := [0]
  rhsNonContracting := [1]
  lhsBatch := []
  rhsBatch := []
  wf := dot_S1000000x80_S80x64_S1000000x64_1_0_0_1_n_n_wf

class Facts : Prop extends Facts₀ where

variable [Facts]
-- ==== Proof.EdgeMlpSpec.lean ====
/-
  The mathematics both programs compute, stated once over plain coordinates.

  For one edge the input row is the five feature pieces laid end to end: sixteen destination features, thirty-two
  destination hidden values, sixteen source features, thirty-two source hidden values and the one edge feature,
  ninety-seven entries in all (`catRow`). The row goes through a two-layer perceptron: the first layer is the affine
  map `x ↦ W₁ x + b₁` into eighty values followed by `max(·, 0)`, the second the affine map `h ↦ W₂ h + b₂` into
  sixty-four values followed by the hyperbolic tangent (`edgeMlp`). Everything is read on the extended reals, where
  the sums are finite sums in a commutative monoid, so no order of summation and no blocking of the rows matters.

  `concat_apply` reads a concatenation of five matrices with a common number of rows along their second axis at an
  index: row `r`, column `j` of the result is entry `j` of the row laid end to end from row `r` of each piece.
-/
import Idealize.ShloMosaic.PureOps.Ideal
import Idealize.ShloMosaic.PureOps.Ideal.Laws
import Idealize.ShloMosaic.Lib.ValueIdx
import Idealize.ShloMosaic.Lib.Pipeline.Value

noncomputable section

namespace Cert.EdgeMlp

open Idealize.ShloMosaic Idealize.ShloMosaic.ValueIdx

/-- Five pieces of lengths 16, 32, 16, 32 and 1 laid end to end: entry `j` of the row of length 97. -/
def catRow {α : Type} (a0 : Fin 16 → α) (a1 : Fin 32 → α) (a2 : Fin 16 → α) (a3 : Fin 32 → α) (a4 : α) (j : Fin 97) : α :=
  if h0 : j.val < 16 then a0 ⟨j.val, h0⟩
  else if h1 : j.val < 48 then a1 ⟨j.val - 16, by omega⟩
  else if h2 : j.val < 64 then a2 ⟨j.val - 48, by omega⟩
  else if h3 : j.val < 96 then a3 ⟨j.val - 64, by omega⟩
  else a4

/-- The perceptron's output `q` for one input row `x`:
    `tanh (∑ₖ max (∑ⱼ x j · W₁ k j + b₁ k) 0 · W₂ q k + b₂ q)`. -/
def edgeMlp (x : Fin 97 → EReal) (W1 : Fin 80 → Fin 97 → EReal) (b1 : Fin 80 → EReal)
    (W2 : Fin 64 → Fin 80 → EReal) (b2 : Fin 64 → EReal) (q : Fin 64) : EReal :=
  Ideal.tanh ((∑ k : Fin 80, max ((∑ j : Fin 97, x j * W1 k j) + b1 k) 0 * W2 q k) + b2 q)

/-- The result's axis-1 coordinate `j` falls in exactly one piece's span; off that axis the coordinates are kept. -/
theorem concat_apply {α : Type} (n : Nat)
    (x0 : (⟨2, ![n, 16]⟩ : Shape).Idx → α) (x1 : (⟨2, ![n, 32]⟩ : Shape).Idx → α) (x2 : (⟨2, ![n, 16]⟩ : Shape).Idx → α)
    (x3 : (⟨2, ![n, 32]⟩ : Shape).Idx → α) (x4 : (⟨2, ![n, 1]⟩ : Shape).Idx → α)
    (h : Shape.Concatenates [(⟨2, ![n, 16]⟩ : Shape), ⟨2, ![n, 32]⟩, ⟨2, ![n, 16]⟩, ⟨2, ![n, 32]⟩, ⟨2, ![n, 1]⟩] ⟨2, ![n, 97]⟩ 1)
    (r : Fin n) (j : Fin 97) :
    concatenate (⟨2, ![n, 97]⟩ : Shape) 1 [⟨⟨2, ![n, 16]⟩, x0⟩, ⟨⟨2, ![n, 32]⟩, x1⟩, ⟨⟨2, ![n, 16]⟩, x2⟩, ⟨⟨2, ![n, 32]⟩, x3⟩, ⟨⟨2, ![n, 1]⟩, x4⟩] h (ix2 r j)
      = catRow (fun a => x0 (ix2 r a)) (fun a => x1 (ix2 r a)) (fun a => x2 (ix2 r a)) (fun a => x3 (ix2 r a)) (x4 (ix2 r 0)) j := by
  unfold catRow
  have off : ∀ {w : Nat} (c : Fin w) (b : Fin 2), b.cast (rfl : (2 : Nat) = 2) ≠ (1 : Fin 2) →
      ((ix2 r c : (⟨2, ![n, w]⟩ : Shape).Idx) b).val = ((ix2 r j : (⟨2, ![n, 97]⟩ : Shape).Idx) (b.cast rfl)).val := by
    intro w c b hb
    match b, hb with
    | ⟨0, _⟩, _ => rfl
    | ⟨1, _⟩, hb => exact absurd rfl hb
  have piece := concatenate_apply_piece (t := (⟨2, ![n, 97]⟩ : Shape)) 1
    [⟨⟨2, ![n, 16]⟩, x0⟩, ⟨⟨2, ![n, 32]⟩, x1⟩, ⟨⟨2, ![n, 16]⟩, x2⟩, ⟨⟨2, ![n, 32]⟩, x3⟩, ⟨⟨2, ![n, 1]⟩, x4⟩] h (ix2 r j)
  split
  · next h0 =>
    exact piece 0 (by simp) _ x0 rfl rfl 0 rfl (ix2 r ⟨j.val, h0⟩) (off _) (by show 0 + j.val = j.val; omega)
  · next h0 =>
    split
    · next h1 =>
      exact piece 1 (by simp) _ x1 rfl rfl 16 rfl (ix2 r ⟨j.val - 16, by omega⟩) (off _)
        (by show 16 + (j.val - 16) = j.val; omega)
    · next h1 =>
      split
      · next h2 =>
        exact piece 2 (by simp) _ x2 rfl rfl 48 rfl (ix2 r ⟨j.val - 48, by omega⟩) (off _)
          (by show 48 + (j.val - 48) = j.val; omega)
      · next h2 =>
        split
        · next h3 =>
          exact piece 3 (by simp) _ x3 rfl rfl 64 rfl (ix2 r ⟨j.val - 64, by omega⟩) (off _)
            (by show 64 + (j.val - 64) = j.val; omega)
        · next h3 =>
          exact piece 4 (by simp) _ x4 rfl rfl 96 rfl (ix2 r 0) (off _)
            (by show 96 + 0 = j.val; have := j.isLt; omega)

/-- An `[a]` array cast to the one-column matrix `[a, 1]` reads, at `(i, u)`, the operand at `i`: both sit at
    row-major position `i`. -/
theorem shapeCast_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The whole result: for every edge `r` and output `q`, the perceptron's output `q` on edge `r`'s row, the
    weights `W₁ : [80, 97]` and `W₂ : [64, 80]` read as given (row = output unit, column = input unit). -/
def edgeOut (a0 : (⟨2, ![1000000, 16]⟩ : Shape).Idx → EReal) (a1 : (⟨2, ![1000000, 32]⟩ : Shape).Idx → EReal)
    (a2 : (⟨2, ![1000000, 16]⟩ : Shape).Idx → EReal) (a3 : (⟨2, ![1000000, 32]⟩ : Shape).Idx → EReal)
    (a4 : (⟨1, ![1000000]⟩ : Shape).Idx → EReal) (w1 : (⟨2, ![80, 97]⟩ : Shape).Idx → EReal)
    (b1 : (⟨1, ![80]⟩ : Shape).Idx → EReal) (w2 : (⟨2, ![64, 80]⟩ : Shape).Idx → EReal)
    (b2 : (⟨1, ![64]⟩ : Shape).Idx → EReal) : (⟨2, ![1000000, 64]⟩ : Shape).Idx → EReal :=
  fun i => edgeMlp (catRow (fun a => a0 (ix2 (i 0) a)) (fun a => a1 (ix2 (i 0) a)) (fun a => a2 (ix2 (i 0) a))
      (fun a => a3 (ix2 (i 0) a)) (a4 (ix1 (i 0))))
    (fun k j => w1 (ix2 k j)) (fun k => b1 (ix1 k)) (fun q k => w2 (ix2 q k)) (fun q => b2 (ix1 q)) (i 1)

/-- The whole result at edge `r`, output `q`. -/
theorem edgeOut_apply (a0 : (⟨2, ![1000000, 16]⟩ : Shape).Idx → EReal) (a1 : (⟨2, ![1000000, 32]⟩ : Shape).Idx → EReal)
    (a2 : (⟨2, ![1000000, 16]⟩ : Shape).Idx → EReal) (a3 : (⟨2, ![1000000, 32]⟩ : Shape).Idx → EReal)
    (a4 : (⟨1, ![1000000]⟩ : Shape).Idx → EReal) (w1 : (⟨2, ![80, 97]⟩ : Shape).Idx → EReal)
    (b1 : (⟨1, ![80]⟩ : Shape).Idx → EReal) (w2 : (⟨2, ![64, 80]⟩ : Shape).Idx → EReal)
    (b2 : (⟨1, ![64]⟩ : Shape).Idx → EReal) (r : Fin 1000000) (q : Fin 64) :
    edgeOut a0 a1 a2 a3 a4 w1 b1 w2 b2 (ix2 r q)
      = edgeMlp (catRow (fun a => a0 (ix2 r a)) (fun a => a1 (ix2 r a)) (fun a => a2 (ix2 r a)) (fun a => a3 (ix2 r a)) (a4 (ix1 r)))
          (fun k j => w1 (ix2 k j)) (fun k => b1 (ix1 k)) (fun q k => w2 (ix2 q k)) (fun q => b2 (ix1 q)) q := rfl

end Cert.EdgeMlp

end
-- ==== Proof.ReferenceAtIndex.lean ====
/-
  The reference program read at one index.

  The reference lays the five feature arrays side by side into a [1000000, 97] matrix (the edge feature first made a
  one-column matrix), multiplies it by the transpose of W₁, adds b₁ along the rows, takes the maximum with zero,
  multiplies by the transpose of W₂, adds b₂ and applies the hyperbolic tangent. Read at row `r` and column `q` on
  the extended reals each matrix product is a finite sum over its contracted coordinate, each transpose swaps the
  two coordinates, each broadcast forgets the row, and the laid-out matrix at `(r, j)` is entry `j` of row `r`'s
  pieces laid end to end: the result is the perceptron `edgeMlp` of that row.
-/
import proofs.«176501_j49349174231510_1_alg».proof.Proof.Gen.ReferenceIdeal.Read
import proofs.«176501_j49349174231510_1_alg».proof.Proof.EdgeMlpSpec

noncomputable section

namespace Cert.ReferenceIdeal.AtIndex

open Cert.ReferenceIdeal Cert.ReferenceIdeal.Read Idealize.ShloMosaic Idealize.ShloMosaic.ValueIdx Cert.EdgeMlp

/-! ## The index maps of the reference's operations, at coordinates -/

theorem lhs_second (r : Fin 1000000) (q : Fin 64) (k : Fin 80) : lidx_main_v9 (ix2 r q) k = ix2 r k :=
  funext fun a => match a with | ⟨0, _⟩ => rfl | ⟨1, _⟩ => rfl
theorem rhs_second (r : Fin 1000000) (q : Fin 64) (k : Fin 80) : ridx_main_v9 (ix2 r q) k = ix2 k q :=
  funext fun a => match a with | ⟨0, _⟩ => rfl | ⟨1, _⟩ => rfl
theorem swap_second (k : Fin 80) (q : Fin 64) : idx_main_v8 (ix2 k q) = ix2 q k :=
  funext fun a => match a with | ⟨0, _⟩ => rfl | ⟨1, _⟩ => rfl
theorem lhs_first (r : Fin 1000000) (k : Fin 80) (j : Fin 97) : lidx_main_v3 (ix2 r k) j = ix2 r j :=
  funext fun a => match a with | ⟨0, _⟩ => rfl | ⟨1, _⟩ => rfl
theorem rhs_first (r : Fin 1000000) (k : Fin 80) (j : Fin 97) : ridx_main_v3 (ix2 r k) j = ix2 j k :=
  funext fun a => match a with | ⟨0, _⟩ => rfl | ⟨1, _⟩ => rfl
theorem swap_first (j : Fin 97) (k : Fin 80) : idx_main_v2 (ix2 j k) = ix2 k j :=
  funext fun a => match a with | ⟨0, _⟩ => rfl | ⟨1, _⟩ => rfl
theorem bias_first_row (r : Fin 1000000) (k : Fin 80) : idx_main_v5 (ix2 r k) = ix2 (0 : Fin 1) k :=
  funext fun a => match a with | ⟨0, _⟩ => rfl | ⟨1, _⟩ => rfl
theorem bias_first (k : Fin 80) : idx_main_v4 (ix2 (0 : Fin 1) k) = ix1 k :=
  funext fun a => match a with | ⟨0, _⟩ => rfl
theorem bias_second_row (r : Fin 1000000) (q : Fin 64) : idx_main_v11 (ix2 r q) = ix2 (0 : Fin 1) q :=
  funext fun a => match a with | ⟨0, _⟩ => rfl | ⟨1, _⟩ => rfl
theorem bias_second (q : Fin 64) : idx_main_v10 (ix2 (0 : Fin 1) q) = ix1 q :=
  funext fun a => match a with | ⟨0, _⟩ => rfl
theorem edge_column (r : Fin 1000000) : idx_main_v0 (ix2 r (0 : Fin 1)) = ix1 r :=
  funext fun a => match a with | ⟨0, _⟩ => rfl

/-! ## The laid-out input matrix -/

/-- Row `r`, column `j` of the matrix the reference lays out is entry `j` of row `r`'s five pieces laid end to end. -/
theorem input_apply (x0 : S1000000x16.Idx → EReal) (x1 : S1000000x32.Idx → EReal) (x2 : S1000000x16.Idx → EReal)
    (x3 : S1000000x32.Idx → EReal) (x4 : S1000000.Idx → EReal) (r : Fin 1000000) (j : Fin 97) :
    val_main_v1 (F := Ideal) x0 x1 x2 x3 x4 (ix2 r j)
      = catRow (fun a => x0 (ix2 r a)) (fun a => x1 (ix2 r a)) (fun a => x2 (ix2 r a)) (fun a => x3 (ix2 r a)) (x4 (ix1 r)) j := by
  unfold val_main_v1
  rw [concat_apply 1000000 x0 x1 x2 x3 (val_main_v0 (F := Ideal) x4) _ r j, val_main_v0_apply, edge_column]

/-! ## The result -/

/-- The reference's result at `(r, q)` is output `q` of the perceptron on row `r`. -/
theorem result_apply (x0 : S1000000x16.Idx → EReal) (x1 : S1000000x32.Idx → EReal) (x2 : S1000000x16.Idx → EReal)
    (x3 : S1000000x32.Idx → EReal) (x4 : S1000000.Idx → EReal) (x5 : S80x97.Idx → EReal) (x6 : S80.Idx → EReal)
    (x7 : S64x80.Idx → EReal) (x8 : S64.Idx → EReal) (r : Fin 1000000) (q : Fin 64) :
    val_main_v13 (F := Ideal) x0 x1 x2 x3 x4 x5 x6 x7 x8 (ix2 r q)
      = edgeMlp (catRow (fun a => x0 (ix2 r a)) (fun a => x1 (ix2 r a)) (fun a => x2 (ix2 r a)) (fun a => x3 (ix2 r a)) (x4 (ix1 r)))
          (fun k j => x5 (ix2 k j)) (fun k => x6 (ix1 k)) (fun q k => x7 (ix2 q k)) (fun q => x8 (ix1 q)) q := by
  unfold edgeMlp
  rw [val_main_v13_apply, val_main_v12_apply, val_main_v9_apply, val_main_v11_apply, val_main_v10_apply]
  simp only [val_main_v7_apply, val_main_v6_apply, val_main_v3_apply, val_main_v5_apply, val_main_v4_apply,
    val_main_call0_v0_apply, val_main_call0_cst_apply, val_main_v8_apply, val_main_v2_apply,
    lhs_second, rhs_second, swap_second, lhs_first, rhs_first, swap_first, bias_first_row, bias_first,
    bias_second_row, bias_second, input_apply,
    Ideal.hostUnary_tanh_def, Ideal.addf_def, Ideal.maximumf_def, Ideal.ofBits_def, Ideal.ofBits_zero_f32]

/-- So the reference's whole result is the perceptron applied edge by edge. -/
theorem result_eq (x0 : S1000000x16.Idx → EReal) (x1 : S1000000x32.Idx → EReal) (x2 : S1000000x16.Idx → EReal)
    (x3 : S1000000x32.Idx → EReal) (x4 : S1000000.Idx → EReal) (x5 : S80x97.Idx → EReal) (x6 : S80.Idx → EReal)
    (x7 : S64x80.Idx → EReal) (x8 : S64.Idx → EReal) :
    val_main_v13 (F := Ideal) x0 x1 x2 x3 x4 x5 x6 x7 x8 = edgeOut x0 x1 x2 x3 x4 x5 x6 x7 x8 := by
  funext i
  obtain ⟨r, q, rfl⟩ : ∃ (r : Fin 1000000) (q : Fin 64), i = ix2 r q := ⟨i 0, i 1, eq_ix2 i⟩
  exact (result_apply x0 x1 x2 x3 x4 x5 x6 x7 x8 r q).trans (edgeOut_apply x0 x1 x2 x3 x4 x5 x6 x7 x8 r q).symm

end Cert.ReferenceIdeal.AtIndex

end
-- ==== Proof.PayloadAtIndex.lean ====
/-
  The kernel body's stored value read at one index of its block.

  On a block of 4000 edges the body lays the five loaded feature blocks side by side into a [4000, 97] matrix,
  multiplies it by the loaded [97, 80] weight block, adds the first bias along the rows, takes the maximum with
  zero, multiplies by the loaded [80, 64] weight block, adds the second bias and applies the hyperbolic tangent;
  the two changes of float format in between are the identity on the extended reals. Read at row `p` and column
  `q` of the block, each matrix product is the finite sum over its contracted coordinate, so the stored value is the
  perceptron `edgeMlp` of row `p`'s pieces laid end to end, with the first weight block read transposed.
-/
import proofs.«176501_j49349174231510_1_alg».proof.Proof.Gen.KernelIdeal.Skeleton
import proofs.«176501_j49349174231510_1_alg».proof.Proof.EdgeMlpSpec
import Idealize.ShloMosaic.Lib.ValueLayout

noncomputable section

namespace Cert.KernelIdeal.Payload

open Cert.KernelIdeal Cert.KernelIdeal.Gen Idealize.ShloMosaic Idealize.ShloMosaic.ValueIdx Cert.EdgeMlp

/-! ## The two matrix products, read at an index -/

theorem lhs_first_0 (i : S4000x80.Idx) (c : dot_S4000x97_S97x80_S4000x80_1_0_0_1_n_n.contr.Idx) :
    (dot_S4000x97_S97x80_S4000x80_1_0_0_1_n_n.lhsIdx i c 0).val = (i 0).val := by
  unfold DotDims.lhsIdx
  rw [dif_neg (show ¬(0 : Fin S4000x97.rank) ∈ dot_S4000x97_S97x80_S4000x80_1_0_0_1_n_n.lhsBatch by decide), dif_pos (show (0 : Fin S4000x97.rank) ∈ dot_S4000x97_S97x80_S4000x80_1_0_0_1_n_n.lhsNonContracting by decide)]
  rfl
theorem lhs_first_1 (i : S4000x80.Idx) (c : dot_S4000x97_S97x80_S4000x80_1_0_0_1_n_n.contr.Idx) :
    (dot_S4000x97_S97x80_S4000x80_1_0_0_1_n_n.lhsIdx i c 1).val = (c ⟨0, by decide⟩).val :=
  dot_S4000x97_S97x80_S4000x80_1_0_0_1_n_n.lhsIdx_val_of_single rfl i c
theorem rhs_first_0 (i : S4000x80.Idx) (c : dot_S4000x97_S97x80_S4000x80_1_0_0_1_n_n.contr.Idx) :
    (dot_S4000x97_S97x80_S4000x80_1_0_0_1_n_n.rhsIdx i c 0).val = (c ⟨0, by decide⟩).val :=
  dot_S4000x97_S97x80_S4000x80_1_0_0_1_n_n.rhsIdx_val_of_single rfl i c
theorem rhs_first_1 (i : S4000x80.Idx) (c : dot_S4000x97_S97x80_S4000x80_1_0_0_1_n_n.contr.Idx) :
    (dot_S4000x97_S97x80_S4000x80_1_0_0_1_n_n.rhsIdx i c 1).val = (i 1).val := by
  unfold DotDims.rhsIdx
  rw [dif_neg (show ¬(1 : Fin S97x80.rank) ∈ dot_S4000x97_S97x80_S4000x80_1_0_0_1_n_n.rhsBatch by decide), dif_pos (show (1 : Fin S97x80.rank) ∈ dot_S4000x97_S97x80_S4000x80_1_0_0_1_n_n.rhsNonContracting by decide)]
  rfl

/-- The first matrix product into a zero accumulator, at row `p` and column `c`: the sum over the contracted
    coordinate of the left factor's row `p` times the right factor's column `c`. -/
theorem first_product_apply (l : FVec Ideal S4000x97 .bf16) (r : FVec Ideal S97x80 .bf16) (p : Fin 4000) (c : Fin 80) :
    matmul dot_S4000x97_S97x80_S4000x80_1_0_0_1_n_n none l r (constant S4000x80 .f32 0x00000000#32) (ix2 p c) = ∑ j : Fin 97, l (ix2 p j) * r (ix2 j c) := by
  simp only [matmul]
  rw [Ideal.matmul_constant_zero_apply, ← Equiv.sum_comp (contrEquiv1 dot_S4000x97_S97x80_S4000x80_1_0_0_1_n_n 97 rfl rfl).symm]
  refine Finset.sum_congr rfl fun j _ => ?_
  have hj := contrEquiv1_symm_val dot_S4000x97_S97x80_S4000x80_1_0_0_1_n_n 97 rfl rfl j
  have el : dot_S4000x97_S97x80_S4000x80_1_0_0_1_n_n.lhsIdx (ix2 p c) ((contrEquiv1 dot_S4000x97_S97x80_S4000x80_1_0_0_1_n_n 97 rfl rfl).symm j) = ix2 p j := funext fun a => Fin.ext (by
    match a with
    | ⟨0, _⟩ => exact lhs_first_0 _ _
    | ⟨1, _⟩ => exact (lhs_first_1 _ _).trans hj)
  have er : dot_S4000x97_S97x80_S4000x80_1_0_0_1_n_n.rhsIdx (ix2 p c) ((contrEquiv1 dot_S4000x97_S97x80_S4000x80_1_0_0_1_n_n 97 rfl rfl).symm j) = ix2 j c := funext fun a => Fin.ext (by
    match a with
    | ⟨0, _⟩ => exact (rhs_first_0 _ _).trans hj
    | ⟨1, _⟩ => exact rhs_first_1 _ _)
  rw [el, er]

theorem lhs_second_0 (i : S4000x64.Idx) (c : dot_S4000x80_S80x64_S4000x64_1_0_0_1_n_n.contr.Idx) :
    (dot_S4000x80_S80x64_S4000x64_1_0_0_1_n_n.lhsIdx i c 0).val = (i 0).val := by
  unfold DotDims.lhsIdx
  rw [dif_neg (show ¬(0 : Fin S4000x80.rank) ∈ dot_S4000x80_S80x64_S4000x64_1_0_0_1_n_n.lhsBatch by decide), dif_pos (show (0 : Fin S4000x80.rank) ∈ dot_S4000x80_S80x64_S4000x64_1_0_0_1_n_n.lhsNonContracting by decide)]
  rfl
theorem lhs_second_1 (i : S4000x64.Idx) (c : dot_S4000x80_S80x64_S4000x64_1_0_0_1_n_n.contr.Idx) :
    (dot_S4000x80_S80x64_S4000x64_1_0_0_1_n_n.lhsIdx i c 1).val = (c ⟨0, by decide⟩).val :=
  dot_S4000x80_S80x64_S4000x64_1_0_0_1_n_n.lhsIdx_val_of_single rfl i c
theorem rhs_second_0 (i : S4000x64.Idx) (c : dot_S4000x80_S80x64_S4000x64_1_0_0_1_n_n.contr.Idx) :
    (dot_S4000x80_S80x64_S4000x64_1_0_0_1_n_n.rhsIdx i c 0).val = (c ⟨0, by decide⟩).val :=
  dot_S4000x80_S80x64_S4000x64_1_0_0_1_n_n.rhsIdx_val_of_single rfl i c
theorem rhs_second_1 (i : S4000x64.Idx) (c : dot_S4000x80_S80x64_S4000x64_1_0_0_1_n_n.contr.Idx) :
    (dot_S4000x80_S80x64_S4000x64_1_0_0_1_n_n.rhsIdx i c 1).val = (i 1).val := by
  unfold DotDims.rhsIdx
  rw [dif_neg (show ¬(1 : Fin S80x64.rank) ∈ dot_S4000x80_S80x64_S4000x64_1_0_0_1_n_n.rhsBatch by decide), dif_pos (show (1 : Fin S80x64.rank) ∈ dot_S4000x80_S80x64_S4000x64_1_0_0_1_n_n.rhsNonContracting by decide)]
  rfl

/-- The second matrix product into a zero accumulator, at row `p` and column `c`: the sum over the contracted
    coordinate of the left factor's row `p` times the right factor's column `c`. -/
theorem second_product_apply (l : FVec Ideal S4000x80 .bf16) (r : FVec Ideal S80x64 .bf16) (p : Fin 4000) (c : Fin 64) :
    matmul dot_S4000x80_S80x64_S4000x64_1_0_0_1_n_n none l r (constant S4000x64 .f32 0x00000000#32) (ix2 p c) = ∑ j : Fin 80, l (ix2 p j) * r (ix2 j c) := by
  simp only [matmul]
  rw [Ideal.matmul_constant_zero_apply, ← Equiv.sum_comp (contrEquiv1 dot_S4000x80_S80x64_S4000x64_1_0_0_1_n_n 80 rfl rfl).symm]
  refine Finset.sum_congr rfl fun j _ => ?_
  have hj := contrEquiv1_symm_val dot_S4000x80_S80x64_S4000x64_1_0_0_1_n_n 80 rfl rfl j
  have el : dot_S4000x80_S80x64_S4000x64_1_0_0_1_n_n.lhsIdx (ix2 p c) ((contrEquiv1 dot_S4000x80_S80x64_S4000x64_1_0_0_1_n_n 80 rfl rfl).symm j) = ix2 p j := funext fun a => Fin.ext (by
    match a with
    | ⟨0, _⟩ => exact lhs_second_0 _ _
    | ⟨1, _⟩ => exact (lhs_second_1 _ _).trans hj)
  have er : dot_S4000x80_S80x64_S4000x64_1_0_0_1_n_n.rhsIdx (ix2 p c) ((contrEquiv1 dot_S4000x80_S80x64_S4000x64_1_0_0_1_n_n 80 rfl rfl).symm j) = ix2 j c := funext fun a => Fin.ext (by
    match a with
    | ⟨0, _⟩ => exact (rhs_second_0 _ _).trans hj
    | ⟨1, _⟩ => exact rhs_second_1 _ _)
  rw [el, er]

/-! ## The pointwise pieces -/

/-- The hyperbolic tangent of a vector, at an index. -/
theorem tanh_at {s : Shape} {φ : FTy} (x : FVec Ideal s φ) (i : s.Idx) : tanh x i = Ideal.tanh (x i) := rfl

/-- The zero word the body takes the maximum with is the extended real zero. -/
theorem zero_word : Scalar.ofBits (F := Ideal) .f32 0x00000000#32 = (0 : EReal) := Ideal.ofBits_zero_f32

/-- Row `p`, column `j` of the block matrix the body lays out is entry `j` of row `p`'s five pieces laid end to end. -/
theorem input_apply (v0 : FVec Ideal S4000x16 .f32) (v1 : FVec Ideal S4000x32 .f32) (v2 : FVec Ideal S4000x16 .f32)
    (v3 : FVec Ideal S4000x32 .f32) (v4 : FVec Ideal S4000x1 .f32)
    (h : Shape.Concatenates [S4000x16, S4000x32, S4000x16, S4000x32, S4000x1] S4000x97 1) (p : Fin 4000) (j : Fin 97) :
    concatenate S4000x97 1 [⟨S4000x16, v0⟩, ⟨S4000x32, v1⟩, ⟨S4000x16, v2⟩, ⟨S4000x32, v3⟩, ⟨S4000x1, v4⟩] h (ix2 p j)
      = catRow (fun a => v0 (ix2 p a)) (fun a => v1 (ix2 p a)) (fun a => v2 (ix2 p a)) (fun a => v3 (ix2 p a)) (v4 (ix2 p 0)) j :=
  concat_apply 4000 v0 v1 v2 v3 v4 h p j

/-! ## The stored value -/

/-- The value the body stores at `(p, q)` of its output block is output `q` of the perceptron on row `p` of the
    loaded blocks, the weights read from the loaded (transposed) weight blocks. -/
theorem stored_apply (v0 : Vec Ideal S4000x16 .f32) (v1 : Vec Ideal S4000x32 .f32) (v2 : Vec Ideal S4000x16 .f32)
    (v3 : Vec Ideal S4000x32 .f32) (v4 : Vec Ideal S4000x1 .f32) (v8 : Vec Ideal S97x80 .bf16) (v11 : Vec Ideal S80 .f32)
    (v18 : Vec Ideal S80x64 .bf16) (v21 : Vec Ideal S64 .f32) (p : Fin 4000) (q : Fin 64) :
    k0_pay1 (F := Ideal) v0 v1 v2 v3 v4 v8 v11 v18 v21 (ix2 p q)
      = edgeMlp (catRow (fun a => v0 (ix2 p a)) (fun a => v1 (ix2 p a)) (fun a => v2 (ix2 p a)) (fun a => v3 (ix2 p a)) (v4 (ix2 p 0)))
          (fun k j => v8 (ix2 j k)) (fun k => v11 (ix1 k)) (fun q k => v18 (ix2 k q)) (fun q => v21 (ix1 q)) q := by
  unfold k0_pay1 edgeMlp
  simp only [tanh_at, addf_apply, maximumf_apply, truncf_apply, broadcast_apply, second_product_apply, first_product_apply,
    broadcastTo_1b_ab_apply, shapeCast_a_1a_apply, shapeCast_self, input_apply, zero_word]

end Cert.KernelIdeal.Payload

end
-- ==== Proof.WholeArray.lean ====
/-
  From the blocks to the whole array.

  The pipeline runs the body at 250 points; point `t` reads rows `4000 t … 4000 t + 3999` of the four feature
  arrays and of the edge feature (made a one-column matrix by the host), the whole of the two weight matrices
  (transposed by the host; the change of float format there is the identity on the extended reals) and of the two
  biases, and writes rows `4000 t … 4000 t + 3999` of the result. By the body's value at an index, what point `t`
  writes back is block `t` of the perceptron applied edge by edge (`edgeOut`); the 250 blocks tile the result, the
  block holding row `r` being number `r / 4000`; so the array after the run is `edgeOut` of the argument arrays.
-/
import proofs.«176501_j49349174231510_1_alg».proof.Proof.Gen.KernelIdeal.Value
import proofs.«176501_j49349174231510_1_alg».proof.Proof.PayloadAtIndex
import Idealize.ShloMosaic.Lib.StableHlo.Run
import Idealize.ShloMosaic.Lib.ValueLayout

noncomputable section

namespace Cert.KernelIdeal.WholeArray

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.EdgeMlp
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-! ## Which block each window reads at a point -/

/-- The row windows (the four feature arrays, the edge column and the result) are at block `(t, 0)` at point `t`. -/
theorem rows_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_9.index t (0 : Fin 2) = t.val ∧ win0_9.index t (1 : Fin 2) = 0 :=
  (by decide +kernel : ∀ t : Fin grid0.N, _)

/-- The weight and bias windows are at their one block at every point. -/
theorem params_idx : ∀ t : Fin cfg0.N,
    win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-- Row `p` of block `t` is row `4000 t + p` of the array. -/
def row (t : Fin cfg0.N) (p : Fin 4000) : Fin 1000000 :=
  ⟨t.val * 4000 + p.val, by have ht : t.val < 250 := lt_of_lt_of_eq t.isLt N_0; have := p.isLt; omega⟩

/-! ## The arrays the host writes before the region -/

/-- The edge feature as a one-column matrix. -/
theorem edge_column_apply (c : Dev nD) (r : Fin 1000000) (u : Fin 1) :
    V m c main_v0 (ix2 r u) = m ((c : Thread nD τ).loc main_arg4) (ix1 r) := by
  have e : (V m c main_v0 : S1000000x1.Idx → EReal)
      = shapeCast S1000000x1 (m ((c : Thread nD τ).loc main_arg4)) shapeCasts_S1000000_S1000000x1 := by
    dsimp only [V, hostOps0]; after_results; rfl
  rw [e]
  exact shapeCast_column_apply _ _ r u

/-- The first weight matrix as the region finds it: transposed. -/
theorem first_weights_apply (c : Dev nD) (j : Fin 97) (k : Fin 80) :
    V m c main_v2 (ix2 j k) = m ((c : Thread nD τ).loc main_arg5) (ix2 k j) := by
  have e : (V m c main_v2 : S97x80.Idx → EReal)
      = transpose S97x80 [1, 0] (m ((c : Thread nD τ).loc main_arg5)) transposes_S80x97_S97x80_1_0 := by
    dsimp only [V, hostOps0]; after_results; rfl
  rw [e]
  exact transpose_ix2_apply _ _ j k

/-- The second weight matrix as the region finds it: transposed. -/
theorem second_weights_apply (c : Dev nD) (k : Fin 80) (q : Fin 64) :
    V m c main_v4 (ix2 k q) = m ((c : Thread nD τ).loc main_arg7) (ix2 q k) := by
  have e : (V m c main_v4 : S80x64.Idx → EReal)
      = transpose S80x64 [1, 0] (m ((c : Thread nD τ).loc main_arg7)) transposes_S64x80_S80x64_1_0 := by
    dsimp only [V, hostOps0]; after_results; rfl
  rw [e]
  exact transpose_ix2_apply _ _ k q

/-! ## The windows' blocks, read at an index -/

/-- Window 0's block at point `t` is rows `4000 t … 4000 t + 3999` of its array. -/
theorem block0_apply (c : Dev nD) (t : Fin cfg0.N) (p : Fin 4000) (a : Fin 16) :
    iblk m c 0 t (ix2 p a) = m ((c : Thread nD τ).loc main_arg0) (ix2 (row t p) a) := by
  show V m c main_arg0 (((cfg0.win 0).blk t).view.emb (ix2 p a)) = _
  rw [V_main_arg0]
  have e : ((cfg0.win 0).blk t).view.emb (ix2 p a) = ix2 (row t p) a := funext fun ax => Fin.ext (by
    match ax with
    | ⟨0, _⟩ =>
      show win0_0.index t (0 : Fin 2) * 4000 + 1 * p.val = t.val * 4000 + p.val
      rw [(rows_idx t).1]; omega
    | ⟨1, _⟩ =>
      show win0_0.index t (1 : Fin 2) * 16 + 1 * a.val = a.val
      rw [(rows_idx t).2.1]; omega)
  rw [e]

/-- Window 1's block at point `t` is rows `4000 t … 4000 t + 3999` of its array. -/
theorem block1_apply (c : Dev nD) (t : Fin cfg0.N) (p : Fin 4000) (a : Fin 32) :
    iblk m c 1 t (ix2 p a) = m ((c : Thread nD τ).loc main_arg1) (ix2 (row t p) a) := by
  show V m c main_arg1 (((cfg0.win 1).blk t).view.emb (ix2 p a)) = _
  rw [V_main_arg1]
  have e : ((cfg0.win 1).blk t).view.emb (ix2 p a) = ix2 (row t p) a := funext fun ax => Fin.ext (by
    match ax with
    | ⟨0, _⟩ =>
      show win0_1.index t (0 : Fin 2) * 4000 + 1 * p.val = t.val * 4000 + p.val
      rw [(rows_idx t).2.2.1]; omega
    | ⟨1, _⟩ =>
      show win0_1.index t (1 : Fin 2) * 32 + 1 * a.val = a.val
      rw [(rows_idx t).2.2.2.1]; omega)
  rw [e]

/-- Window 2's block at point `t` is rows `4000 t … 4000 t + 3999` of its array. -/
theorem block2_apply (c : Dev nD) (t : Fin cfg0.N) (p : Fin 4000) (a : Fin 16) :
    iblk m c 2 t (ix2 p a) = m ((c : Thread nD τ).loc main_arg2) (ix2 (row t p) a) := by
  show V m c main_arg2 (((cfg0.win 2).blk t).view.emb (ix2 p a)) = _
  rw [V_main_arg2]
  have e : ((cfg0.win 2).blk t).view.emb (ix2 p a) = ix2 (row t p) a := funext fun ax => Fin.ext (by
    match ax with
    | ⟨0, _⟩ =>
      show win0_2.index t (0 : Fin 2) * 4000 + 1 * p.val = t.val * 4000 + p.val
      rw [(rows_idx t).2.2.2.2.1]; omega
    | ⟨1, _⟩ =>
      show win0_2.index t (1 : Fin 2) * 16 + 1 * a.val = a.val
      rw [(rows_idx t).2.2.2.2.2.1]; omega)
  rw [e]

/-- Window 3's block at point `t` is rows `4000 t … 4000 t + 3999` of its array. -/
theorem block3_apply (c : Dev nD) (t : Fin cfg0.N) (p : Fin 4000) (a : Fin 32) :
    iblk m c 3 t (ix2 p a) = m ((c : Thread nD τ).loc main_arg3) (ix2 (row t p) a) := by
  show V m c main_arg3 (((cfg0.win 3).blk t).view.emb (ix2 p a)) = _
  rw [V_main_arg3]
  have e : ((cfg0.win 3).blk t).view.emb (ix2 p a) = ix2 (row t p) a := funext fun ax => Fin.ext (by
    match ax with
    | ⟨0, _⟩ =>
      show win0_3.index t (0 : Fin 2) * 4000 + 1 * p.val = t.val * 4000 + p.val
      rw [(rows_idx t).2.2.2.2.2.2.1]; omega
    | ⟨1, _⟩ =>
      show win0_3.index t (1 : Fin 2) * 32 + 1 * a.val = a.val
      rw [(rows_idx t).2.2.2.2.2.2.2.1]; omega)
  rw [e]

/-- The edge column's block at point `t` is rows `4000 t … 4000 t + 3999` of the edge feature. -/
theorem block4_apply (c : Dev nD) (t : Fin cfg0.N) (p : Fin 4000) (u : Fin 1) :
    iblk m c 4 t (ix2 p u) = m ((c : Thread nD τ).loc main_arg4) (ix1 (row t p)) := by
  show V m c main_v0 (((cfg0.win 4).blk t).view.emb (ix2 p u)) = _
  have e : ((cfg0.win 4).blk t).view.emb (ix2 p u) = ix2 (row t p) u := funext fun ax => Fin.ext (by
    match ax with
    | ⟨0, _⟩ =>
      show win0_4.index t (0 : Fin 2) * 4000 + 1 * p.val = t.val * 4000 + p.val
      rw [(rows_idx t).2.2.2.2.2.2.2.2.1]; omega
    | ⟨1, _⟩ =>
      show win0_4.index t (1 : Fin 2) * 1 + 1 * u.val = u.val
      rw [(rows_idx t).2.2.2.2.2.2.2.2.2.1]; omega)
  rw [e]
  exact edge_column_apply m c (row t p) u

/-- The first weight window's one block is the whole transposed matrix. -/
theorem block5_apply (c : Dev nD) (t : Fin cfg0.N) (j : Fin 97) (k : Fin 80) :
    iblk m c 5 t (ix2 j k) = m ((c : Thread nD τ).loc main_arg5) (ix2 k j) := by
  show V m c main_v2 (((cfg0.win 5).blk t).view.emb (ix2 j k)) = _
  have e : ((cfg0.win 5).blk t).view.emb (ix2 j k) = ix2 j k := funext fun ax => Fin.ext (by
    match ax with
    | ⟨0, _⟩ =>
      show win0_5.index t (0 : Fin 2) * 97 + 1 * j.val = j.val
      rw [(params_idx t).1]; omega
    | ⟨1, _⟩ =>
      show win0_5.index t (1 : Fin 2) * 80 + 1 * k.val = k.val
      rw [(params_idx t).2.1]; omega)
  rw [e]
  exact first_weights_apply m c j k

/-- The first bias window's one block is the whole bias. -/
theorem block6_apply (c : Dev nD) (t : Fin cfg0.N) (k : Fin 80) :
    iblk m c 6 t (ix1 k) = m ((c : Thread nD τ).loc main_arg6) (ix1 k) := by
  show V m c main_arg6 (((cfg0.win 6).blk t).view.emb (ix1 k)) = _
  rw [V_main_arg6]
  have e : ((cfg0.win 6).blk t).view.emb (ix1 k) = ix1 k := funext fun ax => Fin.ext (by
    match ax with
    | ⟨0, _⟩ =>
      show win0_6.index t (0 : Fin 1) * 80 + 1 * k.val = k.val
      rw [(params_idx t).2.2.1]; omega)
  rw [e]

/-- The second weight window's one block is the whole transposed matrix. -/
theorem block7_apply (c : Dev nD) (t : Fin cfg0.N) (k : Fin 80) (q : Fin 64) :
    iblk m c 7 t (ix2 k q) = m ((c : Thread nD τ).loc main_arg7) (ix2 q k) := by
  show V m c main_v4 (((cfg0.win 7).blk t).view.emb (ix2 k q)) = _
  have e : ((cfg0.win 7).blk t).view.emb (ix2 k q) = ix2 k q := funext fun ax => Fin.ext (by
    match ax with
    | ⟨0, _⟩ =>
      show win0_7.index t (0 : Fin 2) * 80 + 1 * k.val = k.val
      rw [(params_idx t).2.2.2.1]; omega
    | ⟨1, _⟩ =>
      show win0_7.index t (1 : Fin 2) * 64 + 1 * q.val = q.val
      rw [(params_idx t).2.2.2.2.1]; omega)
  rw [e]
  exact second_weights_apply m c k q

/-- The second bias window's one block is the whole bias. -/
theorem block8_apply (c : Dev nD) (t : Fin cfg0.N) (q : Fin 64) :
    iblk m c 8 t (ix1 q) = m ((c : Thread nD τ).loc main_arg8) (ix1 q) := by
  show V m c main_arg8 (((cfg0.win 8).blk t).view.emb (ix1 q)) = _
  rw [V_main_arg8]
  have e : ((cfg0.win 8).blk t).view.emb (ix1 q) = ix1 q := funext fun ax => Fin.ext (by
    match ax with
    | ⟨0, _⟩ =>
      show win0_8.index t (0 : Fin 1) * 64 + 1 * q.val = q.val
      rw [(params_idx t).2.2.2.2.2]; omega)
  rw [e]

/-- Entry `(p, q)` of the result's block at point `t` is entry `(4000 t + p, q)` of the result. -/
theorem out_emb (t : Fin cfg0.N) (p : Fin 4000) (q : Fin 64) :
    ((cfg0.win 9).blk t).view.emb (ix2 p q) = ix2 (row t p) q := funext fun ax => Fin.ext (by
  match ax with
  | ⟨0, _⟩ =>
    show win0_9.index t (0 : Fin 2) * 4000 + 1 * p.val = t.val * 4000 + p.val
    rw [(rows_idx t).2.2.2.2.2.2.2.2.2.2.1]; omega
  | ⟨1, _⟩ =>
    show win0_9.index t (1 : Fin 2) * 64 + 1 * q.val = q.val
    rw [(rows_idx t).2.2.2.2.2.2.2.2.2.2.2]; omega)

/-! ## What a point writes back -/

/-- The result array as one function of the argument arrays. -/
abbrev out (c : Dev nD) : S1000000x64.Idx → EReal :=
  edgeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- WHAT POINT `t` WRITES BACK is block `t` of the perceptron applied edge by edge to the argument arrays. -/
theorem flushed_eq (c : Dev nD) (t : Fin cfg0.N) :
    (dats m 0 c).flushed 9 t = ((cfg0.win 9).blk t).view.read (Elt Ideal) (out m c) := by
  rw [flushed9]
  unfold out0_9
  rw [View.canon_unit_zero zero2]
  simp only [View.ld_unit_zero (S := S4000x16) zero2, View.ld_unit_zero (S := S4000x32) zero2,
    View.ld_unit_zero (S := S4000x1) zero2, View.ld_unit_zero (S := S97x80) zero2, View.ld_unit_zero (S := S80) zero1,
    View.ld_unit_zero (S := S80x64) zero2, View.ld_unit_zero (S := S64) zero1]
  refine funext fun (y : S4000x64.Idx) => ?_
  obtain ⟨p, q, rfl⟩ : ∃ (p : Fin 4000) (q : Fin 64), y = ix2 p q := ⟨y 0, y 1, eq_ix2 y⟩
  show k0_pay1 (F := Ideal) (iblk m c 0 t) (iblk m c 1 t) (iblk m c 2 t) (iblk m c 3 t) (iblk m c 4 t) (iblk m c 5 t)
      (iblk m c 6 t) (iblk m c 7 t) (iblk m c 8 t) (ix2 p q) = out m c (((cfg0.win 9).blk t).view.emb (ix2 p q))
  rw [out_emb t p q]
  refine (Payload.stored_apply (iblk m c 0 t) (iblk m c 1 t) (iblk m c 2 t) (iblk m c 3 t) (iblk m c 4 t) (iblk m c 5 t)
      (iblk m c 6 t) (iblk m c 7 t) (iblk m c 8 t) p q).trans ?_
  refine Eq.trans ?_ (edgeOut_apply _ _ _ _ _ _ _ _ _ (row t p) q).symm
  simp only [block0_apply m c t, block1_apply m c t, block2_apply m c t, block3_apply m c t, block4_apply m c t,
    block5_apply m c t, block6_apply m c t, block7_apply m c t, block8_apply m c t]

/-! ## The blocks tile the result -/

/-- An index of the result is in point `t`'s block iff each coordinate is in the block's range on its axis. -/
theorem mem_blk (t : Fin cfg0.N) (i : S1000000x64.Idx) :
    i ∈ ((cfg0.win 9).blk t).view.set ↔ ∀ a : Fin 2, win0_9.index t a * S4000x64.size a ≤ (i a).val ∧ (i a).val < win0_9.index t a * S4000x64.size a + S4000x64.size a := by
  show i ∈ ((View.whole main_v5).slice (win0_9.rect t)).set ↔ _
  rw [View.set_slice_whole, Rect.mem_set_unit]
  exact Iff.rfl

/-- Every index of the result is in the block of point `r / 4000`, `r` its row. -/
theorem cover (i : S1000000x64.Idx) :
    ∃ t : Fin cfg0.N, (cfg0.win 9).flush t = true ∧ i ∈ ((cfg0.win 9).blk t).view.set := by
  have hi0 : (i 0).val < 1000000 := (i 0).isLt
  have hi1 : (i 1).val < 64 := (i 1).isLt
  have hN : grid0.N = 250 := N_0
  have ht : (i 0).val / 4000 < cfg0.N := by show (i 0).val / 4000 < grid0.N; rw [hN]; omega
  refine ⟨⟨(i 0).val / 4000, ht⟩, flush0_9 _, ?_⟩
  rw [mem_blk]
  have e0 := (rows_idx ⟨(i 0).val / 4000, ht⟩).2.2.2.2.2.2.2.2.2.2.1
  have e1 := (rows_idx ⟨(i 0).val / 4000, ht⟩).2.2.2.2.2.2.2.2.2.2.2
  intro a
  match a with
  | ⟨0, _⟩ =>
    show win0_9.index ⟨(i 0).val / 4000, ht⟩ (0 : Fin 2) * 4000 ≤ (i 0).val ∧ (i 0).val < win0_9.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_9.index ⟨(i 0).val / 4000, ht⟩ (1 : Fin 2) * 64 ≤ (i 1).val ∧ (i 1).val < win0_9.index ⟨(i 0).val / 4000, ht⟩ (1 : Fin 2) * 64 + 64
    rw [e1]; omega

/-! ## The array after the run, and the run -/

/-- THE ARRAY after the run is the perceptron applied edge by edge to the argument arrays. -/
theorem final (c : Dev nD) : (dats m 0 c).arrAt 9 cfg0.N = out m c :=
  (dats m 0 c).arrAt_eq_of_cover 9 (out m c) (fun t _ => flushed_eq m c t) cover

/-- The kernel's run: it terminates with the result array at the perceptron of the argument arrays, and the
    argument arrays unchanged. -/
theorem run : θ_run defs (onTc (τ := τ) (main (F := Ideal))) ⟨m, fun _ => 0, ρ⟩ fun r => ∀ c : Dev nD,
      r.2.mem ((c : Thread nD τ).loc main_v5) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.WholeArray

end
-- ==== Proof.lean ====
/-
  An edge network's update, computed two ways, is one function on the extended reals.

  For each of a million edges the input row is the destination's features and hidden state, the source's features and
  hidden state and the edge's own feature laid end to end (97 values); the update is the two-layer perceptron
  `tanh (W₂ · max (W₁ · x + b₁, 0) + b₂)` with 80 hidden and 64 output units. The kernel computes it block by block,
  4000 edges at a time, against weight matrices the host has transposed beforehand; the reference computes it on the
  whole arrays at once. On the extended reals a change of float format is the identity and each matrix product is a
  finite sum over the contracted coordinate, so both results are the perceptron applied edge by edge
  (`Cert.EdgeMlp.edgeOut`): for the kernel by reading each block's stored value at an index
  (Proof/PayloadAtIndex.lean) and tiling the result with the 250 blocks (Proof/WholeArray.lean), for the reference by
  reading its operations at an index one after the other (Proof/ReferenceAtIndex.lean). No algebraic law beyond the
  definitions is used, so the finiteness of the inputs is never needed.

  The three programs terminate with their arguments unchanged (the kernel's two frames as generated, the reference's
  from its run), and the idealized kernel is the kernel's own text read on the extended reals (nothing was rewritten).
-/
import proofs.«176501_j49349174231510_1_alg».proof.Defs
import proofs.«176501_j49349174231510_1_alg».proof.Proof.Gen.Kernel
import proofs.«176501_j49349174231510_1_alg».proof.Proof.Gen.Kernel.Skeleton
import proofs.«176501_j49349174231510_1_alg».proof.Proof.Gen.Kernel.Launch
import proofs.«176501_j49349174231510_1_alg».proof.Proof.Gen.Kernel.Points
import proofs.«176501_j49349174231510_1_alg».proof.Proof.Gen.Kernel.Frame
import proofs.«176501_j49349174231510_1_alg».proof.Proof.Gen.KernelIdeal
import proofs.«176501_j49349174231510_1_alg».proof.Proof.Gen.KernelIdeal.Skeleton
import proofs.«176501_j49349174231510_1_alg».proof.Proof.Gen.KernelIdeal.Launch
import proofs.«176501_j49349174231510_1_alg».proof.Proof.Gen.KernelIdeal.Points
import proofs.«176501_j49349174231510_1_alg».proof.Proof.Gen.KernelIdeal.Frame
import proofs.«176501_j49349174231510_1_alg».proof.Proof.Gen.ReferenceIdeal
import proofs.«176501_j49349174231510_1_alg».proof.Proof.Gen.Pre_finite_inputs
import proofs.«176501_j49349174231510_1_alg».proof.Proof.Gen.KernelIdeal.Value
import proofs.«176501_j49349174231510_1_alg».proof.Proof.Gen.ReferenceIdeal.Run
import proofs.«176501_j49349174231510_1_alg».proof.Proof.Gen.ReferenceIdeal.Read
import proofs.«176501_j49349174231510_1_alg».proof.Proof.ReferenceAtIndex
import proofs.«176501_j49349174231510_1_alg».proof.Proof.WholeArray
import Idealize.ShloMosaic.Adequacy
import Idealize.ShloMosaic.Init

noncomputable section

namespace Cert.Proof

open Idealize.ShloMosaic Idealize.SL.Sem Cert.Kernel

/-- The kernel terminates with its arguments unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference terminates with its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at the perceptron applied edge by edge to the argument arrays, which
    agree. -/
theorem algebraic : Cert.algebraic_KernelIdeal_ReferenceIdeal := by
  intro m ρ m' ρ' _ hagree
  refine ⟨fun c => Cert.KernelIdeal.WholeArray.out m c, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v13_eq, Cert.ReferenceIdeal.AtIndex.result_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
